-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2000x128 : Shape := ⟨3, ![32, 2000, 128]⟩
abbrev S_ : Shape := ⟨0, ![]⟩

class Facts : Prop where
  bcast_S_S32x2000x128 : S_.BroadcastsInDim S32x2000x128 (![] : Fin 0 → Fin S32x2000x128.rank)
  reducesTo_S32x2000x128_S_d0_1_2 : S32x2000x128.ReducesTo [0, 1, 2] S_
  h_S_ : 0 < S_.numel

variable [Facts]

def fn {F : FTy → Type} [FloatOps F] (main_arg0 : FVec F S32x2000x128 .f32) : IVec S_ 1 :=
  let main_v0 : FVec F S32x2000x128 .f32 := Host.absf main_arg0
  let main_cst : FVec F S_ .f32 := constant S_ .f32 0x7F800000#32
  let main_v1 : FVec F S32x2000x128 .f32 := broadcastInDim S32x2000x128 ![] bcast_S_S32x2000x128 main_cst
  let main_v2 : IVec S32x2000x128 1 := cmpf .olt main_v0 main_v1
  let main_c : IVec S_ 1 := constantI S_ 1 1#1
  let main_v3 : IVec S_ 1 := (fun x v => Host.reduce IntOp.andi x v reducesTo_S32x2000x128_S_d0_1_2 h_S_) main_v2 main_c
  main_v3
-- ==== Kernel.lean ====
abbrev S32x2000x128 : Shape := ⟨3, ![32, 2000, 128]⟩
abbrev S32x2000x7x128 : Shape := ⟨4, ![32, 2000, 7, 128]⟩
abbrev S1x2000x128 : Shape := ⟨3, ![1, 2000, 128]⟩
abbrev S1x2000x7x128 : Shape := ⟨4, ![1, 2000, 7, 128]⟩
abbrev S2008x128 : Shape := ⟨2, ![2008, 128]⟩
abbrev S8x128 : Shape := ⟨2, ![8, 128]⟩
abbrev S2000x128 : Shape := ⟨2, ![2000, 128]⟩
abbrev S1x2000x1x128 : Shape := ⟨4, ![1, 2000, 1, 128]⟩

abbrev nBuf : Space → Nat
  | .hbm => 2
  | .vmem => 5
  | .smem => 0
  | _ => 0

abbrev bufTy : (tb : Table) → Fin (tcTables nBuf tb) → BufTy
  | .hbm, ⟨0, _⟩ => ⟨S32x2000x128, .f32⟩
  | .hbm, ⟨1, _⟩ => ⟨S32x2000x7x128, .f32⟩
  | .local _ .vmem, ⟨0, _⟩ => ⟨S1x2000x128, .f32⟩
  | .local _ .vmem, ⟨1, _⟩ => ⟨S1x2000x128, .f32⟩
  | .local _ .vmem, ⟨2, _⟩ => ⟨S1x2000x7x128, .f32⟩
  | .local _ .vmem, ⟨3, _⟩ => ⟨S1x2000x7x128, .f32⟩
  | .local _ .vmem, ⟨4, _⟩ => ⟨S2008x128, .f32⟩
  | _, _ => ⟨S32x2000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2000x7x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2008x128_S8x128_0_0 : ∀ a, (![0, 0] : Fin 2 → Nat) a + S8x128.size a ≤ S2008x128.size a
  h_S8x128 : 0 < S8x128.numel
  shapeCasts_S8x128_S8x128 : S8x128.ShapeCasts S8x128
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  inb_S2008x128_S2000x128_8_0 : ∀ a, (![8, 0] : Fin 2 → Nat) a + S2000x128.size a ≤ S2008x128.size a
  h_S2000x128 : 0 < S2000x128.numel
  shapeCasts_S2000x128_S2000x128 : S2000x128.ShapeCasts S2000x128
  inb_S2008x128_S2000x128_2_0 : ∀ a, (![2, 0] : Fin 2 → Nat) a + S2000x128.size a ≤ S2008x128.size a
  inb_S1x2000x7x128_S1x2000x1x128_0_0_0_0 : ∀ a, (![0, 0, 0, 0] : Fin 4 → Nat) a + S1x2000x1x128.size a ≤ S1x2000x7x128.size a
  h_S1x2000x1x128 : 0 < S1x2000x1x128.numel
  shapeCasts_S1x2000x1x128_S2000x128 : S1x2000x1x128.ShapeCasts S2000x128
  shapeCasts_S2000x128_S1x2000x1x128 : S2000x128.ShapeCasts S1x2000x1x128
  inb_S2008x128_S2000x128_3_0 : ∀ a, (![3, 0] : Fin 2 → Nat) a + S2000x128.size a ≤ S2008x128.size a
  inb_S1x2000x7x128_S1x2000x1x128_0_0_1_0 : ∀ a, (![0, 0, 1, 0] : Fin 4 → Nat) a + S1x2000x1x128.size a ≤ S1x2000x7x128.size a
  inb_S2008x128_S2000x128_4_0 : ∀ a, (![4, 0] : Fin 2 → Nat) a + S2000x128.size a ≤ S2008x128.size a
  inb_S1x2000x7x128_S1x2000x1x128_0_0_2_0 : ∀ a, (![0, 0, 2, 0] : Fin 4 → Nat) a + S1x2000x1x128.size a ≤ S1x2000x7x128.size a
  inb_S2008x128_S2000x128_5_0 : ∀ a, (![5, 0] : Fin 2 → Nat) a + S2000x128.size a ≤ S2008x128.size a
  inb_S1x2000x7x128_S1x2000x1x128_0_0_3_0 : ∀ a, (![0, 0, 3, 0] : Fin 4 → Nat) a + S1x2000x1x128.size a ≤ S1x2000x7x128.size a
  inb_S2008x128_S2000x128_6_0 : ∀ a, (![6, 0] : Fin 2 → Nat) a + S2000x128.size a ≤ S2008x128.size a
  inb_S1x2000x7x128_S1x2000x1x128_0_0_4_0 : ∀ a, (![0, 0, 4, 0] : Fin 4 → Nat) a + S1x2000x1x128.size a ≤ S1x2000x7x128.size a
  inb_S2008x128_S2000x128_7_0 : ∀ a, (![7, 0] : Fin 2 → Nat) a + S2000x128.size a ≤ S2008x128.size a
  inb_S1x2000x7x128_S1x2000x1x128_0_0_5_0 : ∀ a, (![0, 0, 5, 0] : Fin 4 → Nat) a + S1x2000x1x128.size a ≤ S1x2000x7x128.size a
  inb_S1x2000x7x128_S1x2000x1x128_0_0_6_0 : ∀ a, (![0, 0, 6, 0] : Fin 4 → Nat) a + S1x2000x1x128.size a ≤ S1x2000x7x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x128.size a ≤ S32x2000x128.size a
  hwx0_0 : ∀ i : grid0.Coords, EltTy.bits .f32 = 32 ∨ (Rect.block (s := S32x2000x128) S1x2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2000x7x128.size a ≤ S32x2000x7x128.size a
  hwx0_1 : ∀ i : grid0.Coords, EltTy.bits .f32 = 32 ∨ (Rect.block (s := S32x2000x7x128) S1x2000x7x128.size (cc0_transform_1 i) (hinb0_1 i)).WholeWords (EltTy.packing .f32)

variable [Facts₀]

abbrev win0_0 : Pipeline.Window sig grid0 :=
  Pipeline.Window.ofSpec (Memref.whole main_arg0) S1x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2000x7x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x2000x128 : Shape := ⟨3, ![32, 2000, 128]⟩
abbrev S_ : Shape := ⟨0, ![]⟩
abbrev S32x2006x128 : Shape := ⟨3, ![32, 2006, 128]⟩
abbrev S32x2000x1x128 : Shape := ⟨4, ![32, 2000, 1, 128]⟩
abbrev S32x2000x7x128 : Shape := ⟨4, ![32, 2000, 7, 128]⟩

abbrev nBuf : Space → Nat
  | .hbm => 19
  | .vmem => 0
  | .smem => 0
  | _ => 0

abbrev bufTy : (tb : Table) → Fin (tcTables nBuf tb) → BufTy
  | .hbm, ⟨0, _⟩ => ⟨S32x2000x128, .f32⟩
  | .hbm, ⟨1, _⟩ => ⟨S_, .i32⟩
  | .hbm, ⟨2, _⟩ => ⟨S_, .f32⟩
  | .hbm, ⟨3, _⟩ => ⟨S32x2006x128, .f32⟩
  | .hbm, ⟨4, _⟩ => ⟨S32x2000x128, .f32⟩
  | .hbm, ⟨5, _⟩ => ⟨S32x2000x128, .f32⟩
  | .hbm, ⟨6, _⟩ => ⟨S32x2000x128, .f32⟩
  | .hbm, ⟨7, _⟩ => ⟨S32x2000x128, .f32⟩
  | .hbm, ⟨8, _⟩ => ⟨S32x2000x128, .f32⟩
  | .hbm, ⟨9, _⟩ => ⟨S32x2000x128, .f32⟩
  | .hbm, ⟨10, _⟩ => ⟨S32x2000x128, .f32⟩
  | .hbm, ⟨11, _⟩ => ⟨S32x2000x1x128, .f32⟩
  | .hbm, ⟨12, _⟩ => ⟨S32x2000x1x128, .f32⟩
  | .hbm, ⟨13, _⟩ => ⟨S32x2000x1x128, .f32⟩
  | .hbm, ⟨14, _⟩ => ⟨S32x2000x1x128, .f32⟩
  | .hbm, ⟨15, _⟩ => ⟨S32x2000x1x128, .f32⟩
  | .hbm, ⟨16, _⟩ => ⟨S32x2000x1x128, .f32⟩
  | .hbm, ⟨17, _⟩ => ⟨S32x2000x1x128, .f32⟩
  | .hbm, ⟨18, _⟩ => ⟨S32x2000x7x128, .f32⟩
  | _, _ => ⟨S32x2000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]

class Facts₀ : Prop where
  pads_S32x2000x128_S32x2006x128_000_600_000 : S32x2000x128.Pads (![0, 6, 0] : Fin 3 → Nat) ![0, 0, 0] ![0, 0, 0] S32x2006x128
  h_S_ : 0 < S_.numel
  slices_S32x2006x128_S32x2000x128_0_0_0 : S32x2006x128.Slices ![0, 0, 0] S32x2000x128
  slices_S32x2006x128_S32x2000x128_0_1_0 : S32x2006x128.Slices ![0, 1, 0] S32x2000x128
  slices_S32x2006x128_S32x2000x128_0_2_0 : S32x2006x128.Slices ![0, 2, 0] S32x2000x128
  slices_S32x2006x128_S32x2000x128_0_3_0 : S32x2006x128.Slices ![0, 3, 0] S32x2000x128
  slices_S32x2006x128_S32x2000x128_0_4_0 : S32x2006x128.Slices ![0, 4, 0] S32x2000x128
  slices_S32x2006x128_S32x2000x128_0_5_0 : S32x2006x128.Slices ![0, 5, 0] S32x2000x128
  slices_S32x2006x128_S32x2000x128_0_6_0 : S32x2006x128.Slices ![0, 6, 0] S32x2000x128
  bcast_S32x2000x128_S32x2000x1x128_0_1_3 : S32x2000x128.BroadcastsInDim S32x2000x1x128 (![0, 1, 3] : Fin 3 → Fin S32x2000x1x128.rank)
  concatenates_S32x2000x1x128_S32x2000x1x128_S32x2000x1x128_S32x2000x1x128_S32x2000x1x128_S32x2000x1x128_S32x2000x1x128_S32x2000x7x128_d2 : Shape.Concatenates [S32x2000x1x128, S32x2000x1x128, S32x2000x1x128, S32x2000x1x128, S32x2000x1x128, S32x2000x1x128, S32x2000x1x128] S32x2000x7x128 2

variable [Facts₀]

class Facts : Prop extends Facts₀ where

variable [Facts]
-- ==== Proof.Window.lean ====
/-
  The causal window stack, as one function of the input, index by index.

  For an input `x` of shape [B, 2000, 128] and a padding value `z`, entry (b, i, j, l) of the stack of seven taps is
  `x (b, i + j - 6, l)` when `6 ≤ i + j`, and `z` otherwise: tap `j` looks `6 - j` rows back, and a row before the
  first one reads the padding.  Nothing here depends on what the entries are (no arithmetic is done on them), so the
  function is stated for an arbitrary entry type, and for an arbitrary batch extent `B` so that one definition serves
  a single batch row as well as the whole array.
-/
import Idealize.ShloMosaic.Lib.ValueIdx

namespace Cert.Window

open Idealize.ShloMosaic Idealize.ShloMosaic.ValueIdx

/-- The row of `x` that tap `j` of output row `i` reads, when there is one. -/
theorem src_lt {i j : Nat} (hi : i < 2000) (hj : j < 7) : i + j - 6 < 2000 := by omega

/-- The stack of seven causal taps of `x`, padded with `z`. -/
def taps {α : Type} {B : Nat} (x : (⟨3, ![B, 2000, 128]⟩ : Shape).Idx → α) (z : α) :
    (⟨4, ![B, 2000, 7, 128]⟩ : Shape).Idx → α :=
  fun i => if 6 ≤ (i 1).val + (i 2).val then
      x (ix3 (i 0) ⟨(i 1).val + (i 2).val - 6, src_lt (i 1).isLt (i 2).isLt⟩ (i 3))
    else z

/-- Before the first row the stack holds the padding. -/
theorem taps_of_lt {α : Type} {B : Nat} (x : (⟨3, ![B, 2000, 128]⟩ : Shape).Idx → α) (z : α)
    (i : (⟨4, ![B, 2000, 7, 128]⟩ : Shape).Idx) (h : (i 1).val + (i 2).val < 6) : taps x z i = z := by
  unfold taps; rw [if_neg (by omega)]

/-- From the sixth diagonal on it holds the entry of `x` six diagonals back: any index `k` of `x` with the same batch
    row and lane, whose row is `i + j - 6`. -/
theorem taps_of_ge {α : Type} {B : Nat} (x : (⟨3, ![B, 2000, 128]⟩ : Shape).Idx → α) (z : α)
    (i : (⟨4, ![B, 2000, 7, 128]⟩ : Shape).Idx) (k : (⟨3, ![B, 2000, 128]⟩ : Shape).Idx)
    (h0 : (k 0).val = (i 0).val) (h1 : (k 1).val + 6 = (i 1).val + (i 2).val) (h2 : (k 2).val = (i 3).val) :
    taps x z i = x k := by
  unfold taps; rw [if_pos (by omega)]
  refine congrArg x (funext fun a => Fin.ext ?_)
  match a with
  | ⟨0, _⟩ => exact h0.symm
  | ⟨1, _⟩ => show (i 1).val + (i 2).val - 6 = (k 1).val; omega
  | ⟨2, _⟩ => exact h2.symm

/-- A batch row of the stack is the stack of the batch row: when `xb` is row `T` of `xa`, the two stacks agree at
    indices with the same row, tap and lane, the array's index in batch row `T`. -/
theorem taps_row {α : Type} {B : Nat} (xa : (⟨3, ![B, 2000, 128]⟩ : Shape).Idx → α)
    (xb : (⟨3, ![1, 2000, 128]⟩ : Shape).Idx → α) (z : α) (T : Nat)
    (hx : ∀ (k : (⟨3, ![1, 2000, 128]⟩ : Shape).Idx) (k' : (⟨3, ![B, 2000, 128]⟩ : Shape).Idx),
      (k' 0).val = T → (k' 1).val = (k 1).val → (k' 2).val = (k 2).val → xb k = xa k')
    (j : (⟨4, ![1, 2000, 7, 128]⟩ : Shape).Idx) (j' : (⟨4, ![B, 2000, 7, 128]⟩ : Shape).Idx)
    (h0 : (j' 0).val = T) (h1 : (j' 1).val = (j 1).val) (h2 : (j' 2).val = (j 2).val) (h3 : (j' 3).val = (j 3).val) :
    taps xb z j = taps xa z j' := by
  by_cases h : 6 ≤ (j 1).val + (j 2).val
  · have hk : (j 1).val + (j 2).val - 6 < 2000 := src_lt (j 1).isLt (j 2).isLt
    have hT : T < B := h0 ▸ (j' 0).isLt
    rw [taps_of_ge xb z j (ix3 (j 0) ⟨(j 1).val + (j 2).val - 6, hk⟩ (j 3)) rfl
          (by show (j 1).val + (j 2).val - 6 + 6 = _; omega) rfl,
        taps_of_ge xa z j' (ix3 (⟨T, hT⟩ : Fin B) ⟨(j 1).val + (j 2).val - 6, hk⟩ (j' 3)) h0.symm
          (by show (j 1).val + (j 2).val - 6 + 6 = _; omega) rfl]
    exact hx _ _ rfl rfl h3
  · rw [taps_of_lt xb z j (by omega), taps_of_lt xa z j' (by omega)]

end Cert.Window
-- ==== Proof.Block.lean ====
import proofs.«135390_j59631325938010_1_alg».proof.Proof.Gen.KernelIdeal.Frame
import proofs.«135390_j59631325938010_1_alg».proof.Proof.Window
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Taps
open Cert.KernelIdeal Cert.KernelIdeal.Gen Cert.Window
variable {F : FTy → Type} [FloatOps F]

theorem hz3 : (![0, 0, 0] : Fin 3 → Nat) = fun _ => 0 := funext fun a => by fin_cases a <;> rfl

/-- The padding value the kernel stores: the word of `+0.0`. -/
abbrev zeroF : Elt F .f32 := (Scalar.ofBits .f32 0x00000000#32 : F .f32)

/-! ## The scratch buffer: one batch row behind eight rows of padding -/

/-- What the scratch buffer holds once both of the body's stores into it are done: rows 0–7 the padding value, row
    `8 + r` row `r` of the batch row `x`. -/
def padded (x : Vec F S1x2000x128 .f32) : S2008x128.Idx → Elt F .f32 :=
  fun p => if 8 ≤ (p 0).val then x (ix3 (0 : Fin 1) ⟨(p 0).val - 8, by have := idx2_lt0 p; omega⟩ (p 1)) else zeroF

theorem padded_of_lt (x : Vec F S1x2000x128 .f32) (p : S2008x128.Idx) (h : (p 0).val < 8) : padded x p = zeroF := by
  unfold padded; rw [if_neg (by omega)]

theorem padded_of_ge (x : Vec F S1x2000x128 .f32) (p : S2008x128.Idx) (k : S1x2000x128.Idx)
    (h1 : (k 1).val + 8 = (p 0).val) (h2 : (k 2).val = (p 1).val) : padded x p = x k := by
  unfold padded; rw [if_pos (by omega)]
  refine congrArg x (funext fun a => Fin.ext ?_)
  match a with
  | ⟨0, _⟩ => show 0 = (k 0).val; have : (k 0).val < 1 := (k 0).isLt; omega
  | ⟨1, _⟩ => show (p 0).val - 8 = (k 1).val; omega
  | ⟨2, _⟩ => exact h2.symm

/-- The store of the batch row: its payload (the input block with its leading unit axis dropped) at row `r` is what
    `padded` holds at row `8 + r`. -/
theorem row_piece (a1 : Memref sig .tc .vmem S1x2000x128 .f32) (h1 : a1.IsWhole) (x : Vec F S1x2000x128 .f32)
    (y : S2000x128.Idx) :
    k0_pay6 (View.readAt (Elt F) a1.view (Rect.unit (s := S1x2000x128) ![0, 0, 0] S1x2000x128.size inb_S1x2000x128_S1x2000x128_0_0_0).toLoadRect (h1.unread x)) y
      = padded x ((Rect.unit (s := S2008x128) ![8, 0] S2000x128.size inb_S2008x128_S2000x128_8_0).emb y) := by
  unfold k0_pay6
  simp only [View.readAt_eq_ld, h1.read_unread, View.ld_unit_zero (S := S1x2000x128) hz3, shapeCast_self]
  refine (shapeCast_apply x _ y (ix3 (0 : Fin 1) (y 0) (y 1)) ?_).trans ?_
  · rw [Shape.rowMajor_val_three, Shape.rowMajor_val_two]
    show (0 * 2000 + (y 0).val) * 128 + (y 1).val = (y 0).val * 128 + (y 1).val
    omega
  · refine (padded_of_ge x _ (ix3 (0 : Fin 1) (y 0) (y 1)) ?_ ?_).symm
    · show (y 0).val + 8 = 8 + 1 * (y 0).val; omega
    · show (y 1).val = 0 + 1 * (y 1).val; omega

/-- The store of the padding: eight rows of the padding value, where `padded` holds it. -/
theorem pad_piece (x : Vec F S1x2000x128 .f32) (y : S8x128.Idx) :
    (k0_pay5 : FVec F S8x128 .f32) y = padded x ((Rect.unit (s := S2008x128) ![0, 0] S8x128.size inb_S2008x128_S8x128_0_0).emb y) := by
  rw [padded_of_lt x _ (by show 0 + 1 * (y 0).val < 8; have := idx2_lt0 y; omega)]
  unfold k0_pay5
  simp only [shapeCast_self]
  rfl

/-- The two stores together fill the scratch buffer with `padded`: the later one covers rows 8 and up, the earlier one
    rows 0–7. -/
theorem scratch_eq (a1 : Memref sig .tc .vmem S1x2000x128 .f32) (h1 : a1.IsWhole) (x : Vec F S1x2000x128 .f32) :
    View.canon [(⟨Rect.unit (s := S2008x128) ![8, 0] S2000x128.size inb_S2008x128_S2000x128_8_0,
          k0_pay6 (View.readAt (Elt F) a1.view (Rect.unit (s := S1x2000x128) ![0, 0, 0] S1x2000x128.size inb_S1x2000x128_S1x2000x128_0_0_0).toLoadRect (h1.unread x))⟩ : View.Piece (Elt F) S2008x128 .f32),
        ⟨Rect.unit (s := S2008x128) ![0, 0] S8x128.size inb_S2008x128_S8x128_0_0, k0_pay5⟩] = padded x := by
  funext p
  refine View.canon_apply_of_pieces (padded x) _ ?_ p ?_
  · intro q hq y
    simp only [List.mem_cons, List.not_mem_nil, or_false] at hq
    rcases hq with rfl | rfl
    · exact row_piece a1 h1 x y
    · exact pad_piece x y
  · have hp1 : (p 1).val < 128 := idx2_lt1 p
    have hp0 : (p 0).val < 2008 := idx2_lt0 p
    by_cases h : 8 ≤ (p 0).val
    · refine ⟨_, List.mem_cons_self, ?_⟩
      show p ∈ (Rect.unit (s := S2008x128) ![8, 0] S2000x128.size inb_S2008x128_S2000x128_8_0).set
      rw [Rect.mem_set_unit]
      intro a
      match a with
      | ⟨0, _⟩ => show 8 ≤ (p 0).val ∧ (p 0).val < 8 + 2000; omega
      | ⟨1, _⟩ => show 0 ≤ (p 1).val ∧ (p 1).val < 0 + 128; omega
    · refine ⟨_, List.mem_cons_of_mem _ List.mem_cons_self, ?_⟩
      show p ∈ (Rect.unit (s := S2008x128) ![0, 0] S8x128.size inb_S2008x128_S8x128_0_0).set
      rw [Rect.mem_set_unit]
      intro a
      match a with
      | ⟨0, _⟩ => show 0 ≤ (p 0).val ∧ (p 0).val < 0 + 8; omega
      | ⟨1, _⟩ => show 0 ≤ (p 1).val ∧ (p 1).val < 0 + 128; omega

/-! ## The seven taps -/

/-- Tap `o`: the 2000 rows of the scratch buffer from row `o + 2` on, stored as column `o` of the output block. Its
    entry `(0, r, 0, l)` is `padded` at row `o + 2 + r`, which is the padding for `r + o < 6` and row `r + o - 6` of `x`
    otherwise: the causal stack at `(0, r, o, l)`. -/
theorem tap_piece (a3 : Memref sig .tc .vmem S2008x128 .f32) (x : Vec F S1x2000x128 .f32)
    (o : Nat) (ho : o < 7) (off : Fin 2 → Nat) (hoff : off = ![o + 2, 0])
    (inb : ∀ a, off a + S2000x128.size a ≤ S2008x128.size a)
    (off' : Fin 4 → Nat) (hoff' : off' = ![0, 0, o, 0])
    (inb' : ∀ a, off' a + S1x2000x1x128.size a ≤ S1x2000x7x128.size a)
    (L : List (View.Piece (Elt F) S2008x128 .f32)) (hL : View.canon L = padded x) (w : S1x2000x1x128.Idx) :
    shapeCast S1x2000x1x128 (a3.view.readCov L (Rect.unit (s := S2008x128) off S2000x128.size inb).toLoadRect) shapeCasts_S2000x128_S1x2000x1x128 w
      = taps (B := 1) x zeroF ((Rect.unit (s := S1x2000x7x128) off' S1x2000x1x128.size inb').emb w) := by
  subst hoff hoff'
  have hw0 : (w 0).val < 1 := (w 0).isLt
  have hw1 : (w 1).val < 2000 := (w 1).isLt
  have hw2 : (w 2).val < 1 := (w 2).isLt
  have hw3 : (w 3).val < 128 := (w 3).isLt
  rw [View.readCov_eq_canon', hL]
  refine (shapeCast_apply _ _ w (ix2 (w 1) (w 3)) ?_).trans ?_
  · rw [Shape.rowMajor_val_two, Shape.rowMajor_val_four]
    show (w 1).val * 128 + (w 3).val = (((w 0).val * 2000 + (w 1).val) * 1 + (w 2).val) * 128 + (w 3).val
    omega
  · by_cases h : 6 ≤ (w 1).val + o
    · have hk : (w 1).val + o - 6 < 2000 := by omega
      rw [padded_of_ge x _ (ix3 (0 : Fin 1) ⟨(w 1).val + o - 6, hk⟩ (w 3))
            (by show (w 1).val + o - 6 + 8 = o + 2 + 1 * (w 1).val; omega)
            (by show (w 3).val = 0 + 1 * (w 3).val; omega),
          taps_of_ge x zeroF _ (ix3 (0 : Fin 1) ⟨(w 1).val + o - 6, hk⟩ (w 3))
            (by show 0 = 0 + 1 * (w 0).val; omega)
            (by show (w 1).val + o - 6 + 6 = (0 + 1 * (w 1).val) + (o + 1 * (w 2).val); omega)
            (by show (w 3).val = 0 + 1 * (w 3).val; omega)]
    · rw [padded_of_lt x _ (by show o + 2 + 1 * (w 1).val < 8; omega),
          taps_of_lt x zeroF _ (by show (0 + 1 * (w 1).val) + (o + 1 * (w 2).val) < 6; omega)]

/-- THE BLOCK: what the body leaves in the output's staging buffer is the causal stack of the input block. The body's
    seven stores tile the block by columns, and each one's payload is the stack on its column (`tap_piece`). -/
theorem block_eq (c : Dev nD) (i : grid0.Coords) (a1 : Memref sig .tc .vmem S1x2000x128 .f32) (h1 : a1.IsWhole)
    (a2 : Memref sig .tc .vmem S1x2000x7x128 .f32) (h2 : a2.IsWhole) (a3 : Memref sig .tc .vmem S2008x128 .f32) (h3 : a3.IsWhole)
    (x : Vec F S1x2000x128 .f32) :
    out0_A_1 c i a1 h1 a2 h2 a3 h3 x = taps (B := 1) x zeroF := by
  unfold out0_A_1
  funext y
  rw [View.read_writes_junk_apply_eq_canon]
  refine View.canon_apply_of_pieces (taps (B := 1) x zeroF) _ ?_ y (cover0_A_1 c i a1 h1 a2 h2 a3 h3 x y)
  unfold kernelRun0_A
  dsimp only
  sl_unfold_words
  intro q hq w
  simp only [List.mem_cons, List.not_mem_nil, or_false] at hq
  rcases hq with rfl | rfl | rfl | rfl | rfl | rfl | rfl
  · exact tap_piece a3 x 6 (by omega) ![8, 0] rfl inb_S2008x128_S2000x128_8_0 ![0, 0, 6, 0] rfl inb_S1x2000x7x128_S1x2000x1x128_0_0_6_0 _ (scratch_eq a1 h1 x) w
  · exact tap_piece a3 x 5 (by omega) ![7, 0] rfl inb_S2008x128_S2000x128_7_0 ![0, 0, 5, 0] rfl inb_S1x2000x7x128_S1x2000x1x128_0_0_5_0 _ (scratch_eq a1 h1 x) w
  · exact tap_piece a3 x 4 (by omega) ![6, 0] rfl inb_S2008x128_S2000x128_6_0 ![0, 0, 4, 0] rfl inb_S1x2000x7x128_S1x2000x1x128_0_0_4_0 _ (scratch_eq a1 h1 x) w
  · exact tap_piece a3 x 3 (by omega) ![5, 0] rfl inb_S2008x128_S2000x128_5_0 ![0, 0, 3, 0] rfl inb_S1x2000x7x128_S1x2000x1x128_0_0_3_0 _ (scratch_eq a1 h1 x) w
  · exact tap_piece a3 x 2 (by omega) ![4, 0] rfl inb_S2008x128_S2000x128_4_0 ![0, 0, 2, 0] rfl inb_S1x2000x7x128_S1x2000x1x128_0_0_2_0 _ (scratch_eq a1 h1 x) w
  · exact tap_piece a3 x 1 (by omega) ![3, 0] rfl inb_S2008x128_S2000x128_3_0 ![0, 0, 1, 0] rfl inb_S1x2000x7x128_S1x2000x1x128_0_0_1_0 _ (scratch_eq a1 h1 x) w
  · exact tap_piece a3 x 0 (by omega) ![2, 0] rfl inb_S2008x128_S2000x128_2_0 ![0, 0, 0, 0] rfl inb_S1x2000x7x128_S1x2000x1x128_0_0_0_0 _ (scratch_eq a1 h1 x) w

end Cert.KernelIdeal.Taps
end
-- ==== Proof.Array.lean ====
import proofs.«135390_j59631325938010_1_alg».proof.Proof.Gen.KernelIdeal.Value
import proofs.«135390_j59631325938010_1_alg».proof.Proof.Block
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Taps
open Cert.KernelIdeal Cert.KernelIdeal.Gen Cert.Window
variable {F : FTy → Type} [FloatOps F]
variable (m : (ℓ : Loc nD τ sig) → Buf (Elt F) ℓ) (ρ : Dev nD → PrngReg)

/-! ## From the blocks to the array

Grid point `t` stages batch row `t` of the input and writes batch row `t` of the output; the 32 rows tile the output. -/

/-- The printed index maps, decided over the 32 grid points: both windows sit in batch row `t`, at the origin of the
    other axes. -/
theorem idx_facts : ∀ t : Fin cfg0.N,
    win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0
    ∧ win0_1.index t (3 : Fin 4) = 0 :=
  (by decide +kernel : ∀ t : Fin grid0.N, _)

/-- WHAT POINT `t` WRITES BACK is block `t` of the causal stack of the whole input array: the body leaves the stack of
    the input block (`block_eq`), the input block is batch row `t` of the input, and a batch row of the stack is the
    stack of the batch row (`taps_row`). -/
theorem flushed_eq (c : Dev nD) (t : Fin cfg0.N) :
    (dats m 0 c).flushed 1 t
      = ((cfg0.win 1).blk t).view.read (Elt F) (taps (B := 32) (V m c main_arg0) zeroF) := by
  rw [Cert.KernelIdeal.Value.flushed1_A, block_eq]
  obtain ⟨e0, e1, e2, f0, f1, f2, f3⟩ := idx_facts t
  funext j
  refine taps_row (B := 32) (V m c main_arg0) (iblk m c 0 t) zeroF t.val ?_ j (((cfg0.win 1).blk t).view.emb j) ?_ ?_ ?_ ?_
  · intro k k' h0 h1 h2
    show V m c main_arg0 (((cfg0.win 0).blk t).view.emb k) = V m c main_arg0 k'
    refine congrArg _ (funext fun a => Fin.ext ?_)
    have hk0 : (k 0).val < 1 := (k 0).isLt
    match a with
    | ⟨0, _⟩ => show win0_0.index t (0 : Fin 3) * 1 + 1 * (k 0).val = (k' 0).val; omega
    | ⟨1, _⟩ => show win0_0.index t (1 : Fin 3) * 2000 + 1 * (k 1).val = (k' 1).val; omega
    | ⟨2, _⟩ => show win0_0.index t (2 : Fin 3) * 128 + 1 * (k 2).val = (k' 2).val; omega
  · have hj0 : (j 0).val < 1 := (j 0).isLt
    show win0_1.index t (0 : Fin 4) * 1 + 1 * (j 0).val = t.val; omega
  · show win0_1.index t (1 : Fin 4) * 2000 + 1 * (j 1).val = (j 1).val; omega
  · show win0_1.index t (2 : Fin 4) * 7 + 1 * (j 2).val = (j 2).val; omega
  · show win0_1.index t (3 : Fin 4) * 128 + 1 * (j 3).val = (j 3).val; omega

/-- An index of the output array is in point `t`'s block iff each coordinate is in the block's range on its axis. -/
theorem mem_blk (t : Fin cfg0.N) (i : S32x2000x7x128.Idx) :
    i ∈ ((cfg0.win 1).blk t).view.set ↔ ∀ a : Fin 4, win0_1.index t a * S1x2000x7x128.size a ≤ (i a).val
      ∧ (i a).val < win0_1.index t a * S1x2000x7x128.size a + S1x2000x7x128.size a := by
  show i ∈ ((View.whole main_v0).slice (win0_1.rect t)).set ↔ _
  rw [View.set_slice_whole, Rect.mem_set_unit]
  exact Iff.rfl

/-- THE OUTPUT ARRAY after the run is the causal stack of the input array: every index lies in the block of the point
    its batch coordinate names. -/
theorem final (c : Dev nD) :
    (dats m 0 c).arrAt 1 cfg0.N = taps (B := 32) (m ((c : Thread nD τ).loc main_arg0)) zeroF :=
  (dats m 0 c).arrAt_eq_of_cover 1 (taps (B := 32) (V m c main_arg0) zeroF) (fun t _ => flushed_eq m c t) fun i => by
    have hN : cfg0.N = 32 := N_0
    have hi0 : (i 0).val < 32 := (i 0).isLt
    have hi1 : (i 1).val < 2000 := (i 1).isLt
    have hi2 : (i 2).val < 7 := (i 2).isLt
    have hi3 : (i 3).val < 128 := (i 3).isLt
    refine ⟨⟨(i 0).val, by omega⟩, flush0_1 _, ?_⟩
    obtain ⟨e0, e1, e2, f0, f1, f2, f3⟩ := idx_facts ⟨(i 0).val, by omega⟩
    rw [mem_blk]
    intro a
    match a with
    | ⟨0, _⟩ => show win0_1.index _ (0 : Fin 4) * 1 ≤ (i 0).val ∧ (i 0).val < win0_1.index _ (0 : Fin 4) * 1 + 1; rw [f0]; show (i 0).val * 1 ≤ (i 0).val ∧ (i 0).val < (i 0).val * 1 + 1; omega
    | ⟨1, _⟩ => show win0_1.index _ (1 : Fin 4) * 2000 ≤ (i 1).val ∧ (i 1).val < win0_1.index _ (1 : Fin 4) * 2000 + 2000; rw [f1]; omega
    | ⟨2, _⟩ => show win0_1.index _ (2 : Fin 4) * 7 ≤ (i 2).val ∧ (i 2).val < win0_1.index _ (2 : Fin 4) * 7 + 7; rw [f2]; omega
    | ⟨3, _⟩ => show win0_1.index _ (3 : Fin 4) * 128 ≤ (i 3).val ∧ (i 3).val < win0_1.index _ (3 : Fin 4) * 128 + 128; rw [f3]; omega

/-- THE KERNEL'S RUN, read: every execution ends with the output array at the causal stack of the input array and the
    input array unchanged. -/
theorem run : θ_run defs (onTc (τ := τ) (main (F := F))) ⟨m, fun _ => 0, ρ⟩ fun r => ∀ c : Dev nD,
      r.2.mem ((c : Thread nD τ).loc main_v0) = taps (B := 32) (m ((c : Thread nD τ).loc main_arg0)) zeroF
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Taps
end
-- ==== Proof.RefTaps.lean ====
import proofs.«135390_j59631325938010_1_alg».proof.Proof.Gen.ReferenceIdeal.Read
import proofs.«135390_j59631325938010_1_alg».proof.Proof.Window
import Idealize.ShloMosaic.Lib.Pipeline.Value
import Idealize.ShloMosaic.Lib.KernelVsHost
import Idealize.ShloMosaic.Lib.ValueIdx

set_option maxRecDepth 16384

noncomputable section

open Idealize.ShloMosaic Idealize.ShloMosaic.TcCoe Idealize.SL.Sem
open Idealize.ShloMosaic.ValueIdx
open Idealize.ShloMosaic.Pipeline (Dat)

namespace Cert.ReferenceIdeal.Taps
open Cert.ReferenceIdeal Cert.ReferenceIdeal.Gen Cert.ReferenceIdeal.Read Cert.Window
variable {F : FTy → Type} [FloatOps F]

/-- The padding value of the reference: the integer `0` converted to a float. -/
abbrev zeroR : Elt F .f32 := (FloatOps.sitofp .f32 (0#32 : BitVec 32) : F .f32)

/-- The input behind six rows of padding, read at `(b, r, l)`: the padding for `r < 6`, -/
theorem padded_of_lt (x0 : (⟨S32x2000x128, .f32⟩ : BufTy).Contents (Elt F)) (q : S32x2006x128.Idx) (h : (q 1).val < 6) :
    val_main_v0 (F := F) x0 q = zeroR := by
  unfold val_main_v0
  refine (pad_apply_of_not_inside (t := S32x2006x128) ![0, 6, 0] ![0, 0, 0] ![0, 0, 0] x0 (val_main_call0_v0 (F := F))
    pads_S32x2000x128_S32x2006x128_000_600_000 h_S_ q (1 : Fin 3) ?_).trans ?_
  · intro hc
    have : 6 ≤ (q 1).val := hc.1
    omega
  · rfl

/-- and row `r - 6` of the input from there on. -/
theorem padded_of_ge (x0 : (⟨S32x2000x128, .f32⟩ : BufTy).Contents (Elt F)) (q : S32x2006x128.Idx) (k : S32x2000x128.Idx)
    (h0 : (k 0).val = (q 0).val) (h1 : (k 1).val + 6 = (q 1).val) (h2 : (k 2).val = (q 2).val) :
    val_main_v0 (F := F) x0 q = x0 k := by
  unfold val_main_v0
  refine pad_apply_of_inside (t := S32x2006x128) ![0, 6, 0] ![0, 0, 0] ![0, 0, 0] x0 (val_main_call0_v0 (F := F))
    pads_S32x2000x128_S32x2006x128_000_600_000 h_S_ q k fun a => ?_
  match a with
  | ⟨0, _⟩ => show (q 0).val = 0 + (k 0).val * (0 + 1); omega
  | ⟨1, _⟩ => show (q 1).val = 6 + (k 1).val * (0 + 1); omega
  | ⟨2, _⟩ => show (q 2).val = 0 + (k 2).val * (0 + 1); omega

/-- Tap `k` of the reference: the 2000 rows of the padded input from row `k` on, given a unit axis at position 2. Its
    entry `(b, r, 0, l)` is the padded input at row `k + r`: the causal stack at `(b, r, k, l)`. -/
theorem tap_eq (x0 : (⟨S32x2000x128, .f32⟩ : BufTy).Contents (Elt F)) (k : Nat) (hk : k < 7)
    (off : Fin 3 → Nat) (hoff : off = ![0, k, 0]) (hs : S32x2006x128.Slices off S32x2000x128)
    (b : Fin 32) (r : Fin 2000) (u : Fin 1) (l : Fin 128) (j : S32x2000x7x128.Idx)
    (e0 : b.val = (j 0).val) (e1 : r.val = (j 1).val) (e2 : (j 2).val = k) (e3 : l.val = (j 3).val) :
    broadcastInDim S32x2000x1x128 ![0, 1, 3] bcast_S32x2000x128_S32x2000x1x128_0_1_3
        (extractStridedSlice S32x2000x128 off (val_main_v0 (F := F) x0) hs) (ix4 b r u l)
      = taps (B := 32) x0 zeroR j := by
  subst hoff
  have hr : r.val < 2000 := r.isLt
  have hq1 : k + r.val < 2006 := by omega
  refine (broadcastInDim_apply _ bcast_S32x2000x128_S32x2000x1x128_0_1_3 _ (ix4 b r u l) (ix3 b r l) fun a => ?_).trans ?_
  · match a with
    | ⟨0, _⟩ => show b.val = if (32 : Nat) = 1 then 0 else b.val; rw [if_neg (by decide)]
    | ⟨1, _⟩ => show r.val = if (2000 : Nat) = 1 then 0 else r.val; rw [if_neg (by decide)]
    | ⟨2, _⟩ => show l.val = if (128 : Nat) = 1 then 0 else l.val; rw [if_neg (by decide)]
  refine (extractStridedSlice_apply ![0, k, 0] _ hs (ix3 b r l) (ix3 b (⟨k + r.val, hq1⟩ : Fin 2006) l) fun a => ?_).trans ?_
  · match a with
    | ⟨0, _⟩ => show b.val = 0 + b.val; omega
    | ⟨1, _⟩ => show k + r.val = k + r.val; rfl
    | ⟨2, _⟩ => show l.val = 0 + l.val; omega
  by_cases h : 6 ≤ k + r.val
  · have hk' : k + r.val - 6 < 2000 := by omega
    exact (padded_of_ge x0 (ix3 b (⟨k + r.val, hq1⟩ : Fin 2006) l) (ix3 b (⟨k + r.val - 6, hk'⟩ : Fin 2000) l) rfl
        (by show k + r.val - 6 + 6 = k + r.val; omega) rfl).trans
      (taps_of_ge x0 zeroR j (ix3 b (⟨k + r.val - 6, hk'⟩ : Fin 2000) l) e0
        (by show k + r.val - 6 + 6 = (j 1).val + (j 2).val; omega) e3).symm
  · exact (padded_of_lt x0 (ix3 b (⟨k + r.val, hq1⟩ : Fin 2006) l) (by show k + r.val < 6; omega)).trans
      (taps_of_lt x0 zeroR j (by omega)).symm

/-- Off the joined axis a piece's index and the stack's index have the same coordinates. -/
theorem off_axis (b : Fin 32) (r : Fin 2000) (l : Fin 128) (j : S32x2000x7x128.Idx)
    (h0 : (j 0).val = b.val) (h1 : (j 1).val = r.val) (h3 : (j 3).val = l.val)
    (a : Fin S32x2000x1x128.rank) (ha : a.cast (rfl : S32x2000x1x128.rank = S32x2000x7x128.rank) ≠ (2 : Fin 4)) :
    ((ix4 b r (0 : Fin 1) l : S32x2000x1x128.Idx) a).val = (j (a.cast (rfl : S32x2000x1x128.rank = S32x2000x7x128.rank))).val :=
  match a, ha with
  | ⟨0, _⟩, _ => h0.symm
  | ⟨1, _⟩, _ => h1.symm
  | ⟨2, _⟩, h => absurd (Fin.ext rfl) h
  | ⟨3, _⟩, _ => h3.symm

/-- Column 0 of the reference's result. -/
theorem stack_tap0 (x0 : (⟨S32x2000x128, .f32⟩ : BufTy).Contents (Elt F)) (b : Fin 32) (r : Fin 2000) (l : Fin 128) (hK : 0 < 7) :
    val_main_v15 (F := F) x0 (ix4 b r (⟨0, hK⟩ : Fin 7) l) = taps (B := 32) x0 zeroR (ix4 b r (⟨0, hK⟩ : Fin 7) l) := by
  unfold val_main_v15
  refine Eq.trans (concatenate_apply_piece (2 : Fin 4) _ _ (ix4 b r (⟨0, hK⟩ : Fin 7) l) 0 (by show (0 : Nat) < 7; omega) S32x2000x1x128 (val_main_v8 (F := F) x0) rfl rfl 0 rfl
      (ix4 b r (0 : Fin 1) l) (off_axis b r l (ix4 b r (⟨0, hK⟩ : Fin 7) l) rfl rfl rfl) rfl) ?_
  exact tap_eq x0 0 hK ![0, 0, 0] rfl slices_S32x2006x128_S32x2000x128_0_0_0 b r 0 l (ix4 b r (⟨0, hK⟩ : Fin 7) l) rfl rfl rfl rfl

/-- Column 1 of the reference's result. -/
theorem stack_tap1 (x0 : (⟨S32x2000x128, .f32⟩ : BufTy).Contents (Elt F)) (b : Fin 32) (r : Fin 2000) (l : Fin 128) (hK : 1 < 7) :
    val_main_v15 (F := F) x0 (ix4 b r (⟨1, hK⟩ : Fin 7) l) = taps (B := 32) x0 zeroR (ix4 b r (⟨1, hK⟩ : Fin 7) l) := by
  unfold val_main_v15
  refine Eq.trans (concatenate_apply_piece (2 : Fin 4) _ _ (ix4 b r (⟨1, hK⟩ : Fin 7) l) 1 (by show (1 : Nat) < 7; omega) S32x2000x1x128 (val_main_v9 (F := F) x0) rfl rfl 1 rfl
      (ix4 b r (0 : Fin 1) l) (off_axis b r l (ix4 b r (⟨1, hK⟩ : Fin 7) l) rfl rfl rfl) rfl) ?_
  exact tap_eq x0 1 hK ![0, 1, 0] rfl slices_S32x2006x128_S32x2000x128_0_1_0 b r 0 l (ix4 b r (⟨1, hK⟩ : Fin 7) l) rfl rfl rfl rfl

/-- Column 2 of the reference's result. -/
theorem stack_tap2 (x0 : (⟨S32x2000x128, .f32⟩ : BufTy).Contents (Elt F)) (b : Fin 32) (r : Fin 2000) (l : Fin 128) (hK : 2 < 7) :
    val_main_v15 (F := F) x0 (ix4 b r (⟨2, hK⟩ : Fin 7) l) = taps (B := 32) x0 zeroR (ix4 b r (⟨2, hK⟩ : Fin 7) l) := by
  unfold val_main_v15
  refine Eq.trans (concatenate_apply_piece (2 : Fin 4) _ _ (ix4 b r (⟨2, hK⟩ : Fin 7) l) 2 (by show (2 : Nat) < 7; omega) S32x2000x1x128 (val_main_v10 (F := F) x0) rfl rfl 2 rfl
      (ix4 b r (0 : Fin 1) l) (off_axis b r l (ix4 b r (⟨2, hK⟩ : Fin 7) l) rfl rfl rfl) rfl) ?_
  exact tap_eq x0 2 hK ![0, 2, 0] rfl slices_S32x2006x128_S32x2000x128_0_2_0 b r 0 l (ix4 b r (⟨2, hK⟩ : Fin 7) l) rfl rfl rfl rfl

/-- Column 3 of the reference's result. -/
theorem stack_tap3 (x0 : (⟨S32x2000x128, .f32⟩ : BufTy).Contents (Elt F)) (b : Fin 32) (r : Fin 2000) (l : Fin 128) (hK : 3 < 7) :
    val_main_v15 (F := F) x0 (ix4 b r (⟨3, hK⟩ : Fin 7) l) = taps (B := 32) x0 zeroR (ix4 b r (⟨3, hK⟩ : Fin 7) l) := by
  unfold val_main_v15
  refine Eq.trans (concatenate_apply_piece (2 : Fin 4) _ _ (ix4 b r (⟨3, hK⟩ : Fin 7) l) 3 (by show (3 : Nat) < 7; omega) S32x2000x1x128 (val_main_v11 (F := F) x0) rfl rfl 3 rfl
      (ix4 b r (0 : Fin 1) l) (off_axis b r l (ix4 b r (⟨3, hK⟩ : Fin 7) l) rfl rfl rfl) rfl) ?_
  exact tap_eq x0 3 hK ![0, 3, 0] rfl slices_S32x2006x128_S32x2000x128_0_3_0 b r 0 l (ix4 b r (⟨3, hK⟩ : Fin 7) l) rfl rfl rfl rfl

/-- Column 4 of the reference's result. -/
theorem stack_tap4 (x0 : (⟨S32x2000x128, .f32⟩ : BufTy).Contents (Elt F)) (b : Fin 32) (r : Fin 2000) (l : Fin 128) (hK : 4 < 7) :
    val_main_v15 (F := F) x0 (ix4 b r (⟨4, hK⟩ : Fin 7) l) = taps (B := 32) x0 zeroR (ix4 b r (⟨4, hK⟩ : Fin 7) l) := by
  unfold val_main_v15
  refine Eq.trans (concatenate_apply_piece (2 : Fin 4) _ _ (ix4 b r (⟨4, hK⟩ : Fin 7) l) 4 (by show (4 : Nat) < 7; omega) S32x2000x1x128 (val_main_v12 (F := F) x0) rfl rfl 4 rfl
      (ix4 b r (0 : Fin 1) l) (off_axis b r l (ix4 b r (⟨4, hK⟩ : Fin 7) l) rfl rfl rfl) rfl) ?_
  exact tap_eq x0 4 hK ![0, 4, 0] rfl slices_S32x2006x128_S32x2000x128_0_4_0 b r 0 l (ix4 b r (⟨4, hK⟩ : Fin 7) l) rfl rfl rfl rfl

/-- Column 5 of the reference's result. -/
theorem stack_tap5 (x0 : (⟨S32x2000x128, .f32⟩ : BufTy).Contents (Elt F)) (b : Fin 32) (r : Fin 2000) (l : Fin 128) (hK : 5 < 7) :
    val_main_v15 (F := F) x0 (ix4 b r (⟨5, hK⟩ : Fin 7) l) = taps (B := 32) x0 zeroR (ix4 b r (⟨5, hK⟩ : Fin 7) l) := by
  unfold val_main_v15
  refine Eq.trans (concatenate_apply_piece (2 : Fin 4) _ _ (ix4 b r (⟨5, hK⟩ : Fin 7) l) 5 (by show (5 : Nat) < 7; omega) S32x2000x1x128 (val_main_v13 (F := F) x0) rfl rfl 5 rfl
      (ix4 b r (0 : Fin 1) l) (off_axis b r l (ix4 b r (⟨5, hK⟩ : Fin 7) l) rfl rfl rfl) rfl) ?_
  exact tap_eq x0 5 hK ![0, 5, 0] rfl slices_S32x2006x128_S32x2000x128_0_5_0 b r 0 l (ix4 b r (⟨5, hK⟩ : Fin 7) l) rfl rfl rfl rfl

/-- Column 6 of the reference's result. -/
theorem stack_tap6 (x0 : (⟨S32x2000x128, .f32⟩ : BufTy).Contents (Elt F)) (b : Fin 32) (r : Fin 2000) (l : Fin 128) (hK : 6 < 7) :
    val_main_v15 (F := F) x0 (ix4 b r (⟨6, hK⟩ : Fin 7) l) = taps (B := 32) x0 zeroR (ix4 b r (⟨6, hK⟩ : Fin 7) l) := by
  unfold val_main_v15
  refine Eq.trans (concatenate_apply_piece (2 : Fin 4) _ _ (ix4 b r (⟨6, hK⟩ : Fin 7) l) 6 (by show (6 : Nat) < 7; omega) S32x2000x1x128 (val_main_v14 (F := F) x0) rfl rfl 6 rfl
      (ix4 b r (0 : Fin 1) l) (off_axis b r l (ix4 b r (⟨6, hK⟩ : Fin 7) l) rfl rfl rfl) rfl) ?_
  exact tap_eq x0 6 hK ![0, 6, 0] rfl slices_S32x2006x128_S32x2000x128_0_6_0 b r 0 l (ix4 b r (⟨6, hK⟩ : Fin 7) l) rfl rfl rfl rfl

/-- THE REFERENCE'S RESULT is the causal stack of its input: the concatenation's entry `(b, r, k, l)` comes from piece
    `k`, which is tap `k` (`tap_eq`). -/
theorem stack_eq (x0 : (⟨S32x2000x128, .f32⟩ : BufTy).Contents (Elt F)) :
    val_main_v15 (F := F) x0 = taps (B := 32) x0 zeroR := by
  funext j
  obtain ⟨b, r, t, l, rfl⟩ : ∃ (b : Fin 32) (r : Fin 2000) (t : Fin 7) (l : Fin 128), j = ix4 b r t l :=
    ⟨j 0, j 1, j 2, j 3, eq_ix4 j⟩
  match t with
  | ⟨0, hK⟩ => exact stack_tap0 x0 b r l hK
  | ⟨1, hK⟩ => exact stack_tap1 x0 b r l hK
  | ⟨2, hK⟩ => exact stack_tap2 x0 b r l hK
  | ⟨3, hK⟩ => exact stack_tap3 x0 b r l hK
  | ⟨4, hK⟩ => exact stack_tap4 x0 b r l hK
  | ⟨5, hK⟩ => exact stack_tap5 x0 b r l hK
  | ⟨6, hK⟩ => exact stack_tap6 x0 b r l hK

end Cert.ReferenceIdeal.Taps
end
-- ==== Proof.lean ====
/-
  The kernel and its reference compute the same causal window stack.

  Input `x` : [32, 2000, 128]. Output [32, 2000, 7, 128] with entry (b, i, j, l) equal to `x (b, i + j - 6, l)` when
  `6 ≤ i + j` and to zero otherwise (`Cert.Window.taps`): tap `j` of row `i` looks `6 - j` rows back, and rows before
  the first read as zero.

  The kernel handles one batch row per grid point. It writes eight zero rows and then the 2000 rows of the batch row
  into a scratch buffer of 2008 rows, and copies the seven windows of 2000 rows starting at rows 2, …, 8 of that
  buffer into the seven columns of its output block; row `2 + j + i` of the buffer is zero for `i + j < 6` and row
  `i + j - 6` of the batch row otherwise (Proof/Block.lean). The 32 output blocks tile the output array
  (Proof/Array.lean). The reference pads six zero rows in front of the 2000, takes the seven windows of 2000 rows
  starting at rows 0, …, 6 and stacks them along a new axis (Proof/RefTaps.lean). Both are the same function of `x`,
  entry by entry; no arithmetic is done on the entries, so nothing depends on their being finite. The one thing to
  check at the level of values is that the two zeros agree over the extended reals: the kernel's is the float word
  `+0.0`, the reference's the integer `0` converted to a float.
-/
import proofs.«135390_j59631325938010_1_alg».proof.Defs
import proofs.«135390_j59631325938010_1_alg».proof.Proof.Gen.Kernel
import proofs.«135390_j59631325938010_1_alg».proof.Proof.Gen.Kernel.Frame
import proofs.«135390_j59631325938010_1_alg».proof.Proof.Gen.KernelIdeal
import proofs.«135390_j59631325938010_1_alg».proof.Proof.Gen.KernelIdeal.Frame
import proofs.«135390_j59631325938010_1_alg».proof.Proof.Gen.ReferenceIdeal
import proofs.«135390_j59631325938010_1_alg».proof.Proof.Gen.ReferenceIdeal.Run
import proofs.«135390_j59631325938010_1_alg».proof.Proof.Gen.ReferenceIdeal.Read
import proofs.«135390_j59631325938010_1_alg».proof.Proof.Gen.Pre_finite_inputs
import proofs.«135390_j59631325938010_1_alg».proof.Proof.Array
import proofs.«135390_j59631325938010_1_alg».proof.Proof.RefTaps
import Idealize.ShloMosaic.PureOps.Ideal.Laws
import Idealize.ShloMosaic.Adequacy
import Idealize.ShloMosaic.Init

noncomputable section

namespace Cert.Proof

open Idealize.ShloMosaic Idealize.ShloMosaic.TcCoe Idealize.SL.Sem Cert.Window

/-- Over the extended reals the reference's padding value (the integer `0` converted) and the kernel's (the float
    word `+0.0`) are both the number zero. -/
theorem zero_eq : (Cert.ReferenceIdeal.Taps.zeroR (F := Ideal)) = Cert.KernelIdeal.Taps.zeroF (F := Ideal) := by
  show (((0#32 : BitVec 32).toInt : ℝ) : EReal) = Ideal.ofBits .f32 0x00000000#32
  rw [Ideal.ofBits_zero_f32]
  simp

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the causal stack of the input: the kernel's output array (`Taps.run`) and the
    reference's result (`stack_eq`), of inputs that agree, padded with the same zero. -/
theorem algebraic : Cert.algebraic_KernelIdeal_ReferenceIdeal := by
  intro m ρ m' ρ' _ hagree
  refine ⟨fun c => taps (B := 32) (m ((c.tc : Thread Cert.KernelIdeal.nD Cert.KernelIdeal.τ).loc Cert.KernelIdeal.main_arg0))
      (Cert.KernelIdeal.Taps.zeroF (F := Ideal)), Cert.KernelIdeal.Taps.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Taps.stack_eq, hagree c, zero_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
